-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S1024x768 : Shape := ⟨2, ![1024, 768]⟩
abbrev S64x768 : Shape := ⟨2, ![64, 768]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S1024x768 : S_.BroadcastsInDim S1024x768 (![] : Fin 0 → Fin S1024x768.rank)
  reducesTo_S1024x768_S_d0_1 : S1024x768.ReducesTo [0, 1] S_
  bcast_S_S64x768 : S_.BroadcastsInDim S64x768 (![] : Fin 0 → Fin S64x768.rank)
  reducesTo_S64x768_S_d0_1 : S64x768.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x768 .f32) (main_arg5 : FVec F S64 .f32) (main_arg6 : FVec F S1x64 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x768 .f32 := Host.absf main_arg4
  let main_cst_6 : FVec F S_ .f32 := constant S_ .f32 0x7F800000#32
  let main_v20 : FVec F S64x768 .f32 := broadcastInDim S64x768 ![] bcast_S_S64x768 main_cst_6
  let main_v21 : IVec S64x768 1 := cmpf .olt main_v19 main_v20
  let main_c_7 : IVec S_ 1 := constantI S_ 1 1#1
  let main_v22 : IVec S_ 1 := (fun x v => Host.reduce IntOp.andi x v reducesTo_S64x768_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_v33

def fn {F : FTy → Type} [FloatOps F] (main_arg0 : FVec F S8x4096x768 .f32) (main_arg1 : FVec F S1024x768 .f32) (main_arg2 : FVec F S64x768 .f32) (main_arg3 : FVec F S64 .f32) (main_arg4 : FVec F S64x768 .f32) (main_arg5 : FVec F S64 .f32) (main_arg6 : FVec F S1x64 .f32) (main_arg7 : FVec F S1 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S1024x768 .f32 := Host.absf main_arg1
  let main_cst_0 : FVec F S_ .f32 := constant S_ .f32 0x7F800000#32
  let main_v5 : FVec F S1024x768 .f32 := broadcastInDim S1024x768 ![] bcast_S_S1024x768 main_cst_0
  let main_v6 : IVec S1024x768 1 := cmpf .olt main_v4 main_v5
  let main_c_1 : IVec S_ 1 := constantI S_ 1 1#1
  let main_v7 : IVec S_ 1 := (fun x v => Host.reduce IntOp.andi x v reducesTo_S1024x768_S_d0_1 h_S_) main_v6 main_c_1
  let main_v8 : IVec S_ 1 := andi main_v3 main_v7
  let main_v9 : FVec F S64x768 .f32 := Host.absf main_arg2
  let main_cst_2 : FVec F S_ .f32 := constant S_ .f32 0x7F800000#32
  let main_v10 : FVec F S64x768 .f32 := broadcastInDim S64x768 ![] bcast_S_S64x768 main_cst_2
  let main_v11 : IVec S64x768 1 := cmpf .olt main_v9 main_v10
  let main_c_3 : IVec S_ 1 := constantI S_ 1 1#1
  let main_v12 : IVec S_ 1 := (fun x v => Host.reduce IntOp.andi x v reducesTo_S64x768_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S8x4096x768 : Shape := ⟨3, ![8, 4096, 768]⟩
abbrev S1024x768 : Shape := ⟨2, ![1024, 768]⟩
abbrev S64x768 : Shape := ⟨2, ![64, 768]⟩
abbrev S64 : Shape := ⟨1, ![64]⟩
abbrev S1x64 : Shape := ⟨2, ![1, 64]⟩
abbrev S1 : Shape := ⟨1, ![1]⟩
abbrev S1x1 : Shape := ⟨2, ![1, 1]⟩
abbrev S1024x64 : Shape := ⟨2, ![1024, 64]⟩
abbrev S768x64 : Shape := ⟨2, ![768, 64]⟩
abbrev S32768x768 : Shape := ⟨2, ![32768, 768]⟩
abbrev S32768x1024 : Shape := ⟨2, ![32768, 1024]⟩
abbrev S1024x1024 : Shape := ⟨2, ![1024, 1024]⟩
abbrev S64x1024 : Shape := ⟨2, ![64, 1024]⟩
abbrev S8x4096x1024 : Shape := ⟨3, ![8, 4096, 1024]⟩

abbrev nBuf : Space → Nat
  | .hbm => 15
  | .vmem => 13
  | .smem => 0
  | _ => 0

abbrev bufTy : (tb : Table) → Fin (tcTables nBuf tb) → BufTy
  | .hbm, ⟨0, _⟩ => ⟨S8x4096x768, .f32⟩
  | .hbm, ⟨1, _⟩ => ⟨S1024x768, .f32⟩
  | .hbm, ⟨2, _⟩ => ⟨S64x768, .f32⟩
  | .hbm, ⟨3, _⟩ => ⟨S64, .f32⟩
  | .hbm, ⟨4, _⟩ => ⟨S64x768, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S1x64, .f32⟩
  | .hbm, ⟨9, _⟩ => ⟨S1x64, .f32⟩
  | .hbm, ⟨10, _⟩ => ⟨S1x1, .f32⟩
  | .hbm, ⟨11, _⟩ => ⟨S1024x64, .f32⟩
  | .hbm, ⟨12, _⟩ => ⟨S32768x768, .f32⟩
  | .hbm, ⟨13, _⟩ => ⟨S32768x1024, .f32⟩
  | .hbm, ⟨14, _⟩ => ⟨S8x4096x1024, .f32⟩
  | .local _ .vmem, ⟨0, _⟩ => ⟨S1024x768, .f32⟩
  | .local _ .vmem, ⟨1, _⟩ => ⟨S64x768, .f32⟩
  | .local _ .vmem, ⟨2, _⟩ => ⟨S1x64, .f32⟩
  | .local _ .vmem, ⟨3, _⟩ => ⟨S1x64, .f32⟩
  | .local _ .vmem, ⟨4, _⟩ => ⟨S1024x64, .f32⟩
  | .local _ .vmem, ⟨5, _⟩ => ⟨S1024x768, .f32⟩
  | .local _ .vmem, ⟨6, _⟩ => ⟨S1024x768, .f32⟩
  | .local _ .vmem, ⟨7, _⟩ => ⟨S64x768, .f32⟩
  | .local _ .vmem, ⟨8, _⟩ => ⟨S1x64, .f32⟩
  | .local _ .vmem, ⟨9, _⟩ => ⟨S1024x64, .f32⟩
  | .local _ .vmem, ⟨10, _⟩ => ⟨S1x1, .f32⟩
  | .local _ .vmem, ⟨11, _⟩ => ⟨S1024x1024, .f32⟩
  | .local _ .vmem, ⟨12, _⟩ => ⟨S1024x1024, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S64_S1x64 : S64.ShapeCasts S1x64
  shapeCasts_S1_S1x1 : S1.ShapeCasts S1x1
  inb_S1024x768_S1024x768_0_0 : ∀ a, (![0, 0] : Fin 2 → Nat) a + S1024x768.size a ≤ S1024x768.size a
  h_S1024x768 : 0 < S1024x768.numel
  bitsLt_bf16_f32 : FTy.bits .bf16 < FTy.bits .f32
  inb_S64x768_S64x768_0_0 : ∀ a, (![0, 0] : Fin 2 → Nat) a + S64x768.size a ≤ S64x768.size a
  h_S64x768 : 0 < S64x768.numel
  transposes_S64x768_p1_0_S768x64 : S64x768.Transposes [1, 0] S768x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  shapeCasts_S8x4096x768_S32768x768 : S8x4096x768.ShapeCasts S32768x768
  shapeCasts_S1024x768_S1024x768 : S1024x768.ShapeCasts S1024x768
  shapeCasts_S1024x64_S1024x64 : S1024x64.ShapeCasts S1024x64
  transposes_S1024x64_p1_0_S64x1024 : S1024x64.Transposes [1, 0] S64x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1024 : S1x1.Broadcasts S1024x1024
  inb_S1024x1024_S1024x1024_0_0 : ∀ a, (![0, 0] : Fin 2 → Nat) a + S1024x1024.size a ≤ S1024x1024.size a
  h_S1024x1024 : 0 < S1024x1024.numel
  shapeCasts_S32768x1024_S8x4096x1024 : S32768x1024.ShapeCasts S8x4096x1024
  dot_S1024x768_S768x64_S1024x64_1_0_0_1_n_n_wf : DotDims.WF S1024x768 S768x64 S1024x64 [1] [0] [0] [1] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S1024x768.size a
  hwx0_0 : ∀ i : grid0.Coords, EltTy.bits .f32 = 32 ∨ (Rect.block (s := S1024x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x768.size a ≤ S64x768.size a
  hwx0_1 : ∀ i : grid0.Coords, EltTy.bits .f32 = 32 ∨ (Rect.block (s := S64x768) S64x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S1024x64.size a
  hwx0_4 : ∀ i : grid0.Coords, EltTy.bits .f32 = 32 ∨ (Rect.block (s := S1024x64) S1024x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x768.size a ≤ S32768x768.size a
  hwx1_0 : ∀ i : grid1.Coords, EltTy.bits .f32 = 32 ∨ (Rect.block (s := S32768x768) S1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x768.size a ≤ S64x768.size a
  hwx1_1 : ∀ i : grid1.Coords, EltTy.bits .f32 = 32 ∨ (Rect.block (s := S64x768) S64x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S1024x64.size a
  hwx1_3 : ∀ i : grid1.Coords, EltTy.bits .f32 = 32 ∨ (Rect.block (s := S1024x64) S1024x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S32768x1024.size a
  hwx1_5 : ∀ i : grid1.Coords, EltTy.bits .f32 = 32 ∨ (Rect.block (s := S32768x1024) S1024x1024.size (cc1_transform_5 i) (hinb1_5 i)).WholeWords (EltTy.packing .f32)

variable [Facts₀]

def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg1) S1024x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S64x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x4096x768 : Shape := ⟨3, ![8, 4096, 768]⟩
abbrev S1024x768 : Shape := ⟨2, ![1024, 768]⟩
abbrev S64x768 : Shape := ⟨2, ![64, 768]⟩
abbrev S64 : Shape := ⟨1, ![64]⟩
abbrev S1x64 : Shape := ⟨2, ![1, 64]⟩
abbrev S1 : Shape := ⟨1, ![1]⟩
abbrev S8x4096x64 : Shape := ⟨3, ![8, 4096, 64]⟩
abbrev S1x1x64 : Shape := ⟨3, ![1, 1, 64]⟩
abbrev S_ : Shape := ⟨0, ![]⟩
abbrev S1024x64 : Shape := ⟨2, ![1024, 64]⟩
abbrev S8x4096x1024 : Shape := ⟨3, ![8, 4096, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S1024x768, .f32⟩
  | .hbm, ⟨2, _⟩ => ⟨S64x768, .f32⟩
  | .hbm, ⟨3, _⟩ => ⟨S64, .f32⟩
  | .hbm, ⟨4, _⟩ => ⟨S64x768, .f32⟩
  | .hbm, ⟨5, _⟩ => ⟨S64, .f32⟩
  | .hbm, ⟨6, _⟩ => ⟨S1x64, .f32⟩
  | .hbm, ⟨7, _⟩ => ⟨S1, .f32⟩
  | .hbm, ⟨8, _⟩ => ⟨S8x4096x64, .f32⟩
  | .hbm, ⟨9, _⟩ => ⟨S1x1x64, .f32⟩
  | .hbm, ⟨10, _⟩ => ⟨S8x4096x64, .f32⟩
  | .hbm, ⟨11, _⟩ => ⟨S8x4096x64, .f32⟩
  | .hbm, ⟨12, _⟩ => ⟨S_, .f32⟩
  | .hbm, ⟨13, _⟩ => ⟨S8x4096x64, .f32⟩
  | .hbm, ⟨14, _⟩ => ⟨S8x4096x64, .f32⟩
  | .hbm, ⟨15, _⟩ => ⟨S1024x64, .f32⟩
  | .hbm, ⟨16, _⟩ => ⟨S1x64, .f32⟩
  | .hbm, ⟨17, _⟩ => ⟨S1024x64, .f32⟩
  | .hbm, ⟨18, _⟩ => ⟨S1024x64, .f32⟩
  | .hbm, ⟨19, _⟩ => ⟨S_, .f32⟩
  | .hbm, ⟨20, _⟩ => ⟨S1024x64, .f32⟩
  | .hbm, ⟨21, _⟩ => ⟨S1024x64, .f32⟩
  | .hbm, ⟨22, _⟩ => ⟨S64, .f32⟩
  | .hbm, ⟨23, _⟩ => ⟨S1x1x64, .f32⟩
  | .hbm, ⟨24, _⟩ => ⟨S8x4096x64, .f32⟩
  | .hbm, ⟨25, _⟩ => ⟨S8x4096x64, .f32⟩
  | .hbm, ⟨26, _⟩ => ⟨S8x4096x1024, .f32⟩
  | .hbm, ⟨27, _⟩ => ⟨S_, .f32⟩
  | .hbm, ⟨28, _⟩ => ⟨S8x4096x1024, .f32⟩
  | .hbm, ⟨29, _⟩ => ⟨S8x4096x1024, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x4096x64_0_1_2 : S1x1x64.BroadcastsInDim S8x4096x64 (![0, 1, 2] : Fin 3 → Fin S8x4096x64.rank)
  bcast_S_S8x4096x64 : S_.BroadcastsInDim S8x4096x64 (![] : Fin 0 → Fin S8x4096x64.rank)
  bcast_S64_S1x64_1 : S64.BroadcastsInDim S1x64 (![1] : Fin 1 → Fin S1x64.rank)
  bcast_S1x64_S1024x64_0_1 : S1x64.BroadcastsInDim S1024x64 (![0, 1] : Fin 2 → Fin S1024x64.rank)
  bcast_S_S1024x64 : S_.BroadcastsInDim S1024x64 (![] : Fin 0 → Fin S1024x64.rank)
  shapeCasts_S1x64_S64 : S1x64.ShapeCasts S64
  shapeCasts_S1_S_ : S1.ShapeCasts S_
  bcast_S_S8x4096x1024 : S_.BroadcastsInDim S8x4096x1024 (![] : Fin 0 → Fin S8x4096x1024.rank)
  dot_S8x4096x768_S64x768_S8x4096x64_2_1_01_0_n_n_wf : DotDims.WF S8x4096x768 S64x768 S8x4096x64 [2] [1] [0, 1] [0] [] []
  dot_S1024x768_S64x768_S1024x64_1_1_0_0_n_n_wf : DotDims.WF S1024x768 S64x768 S1024x64 [1] [1] [0] [0] [] []
  dot_S8x4096x64_S1024x64_S8x4096x1024_2_1_01_0_n_n_wf : DotDims.WF S8x4096x64 S1024x64 S8x4096x1024 [2] [1] [0, 1] [0] [] []

variable [Facts₀]

def dot_S8x4096x768_S64x768_S8x4096x64_2_1_01_0_n_n : DotDims S8x4096x768 S64x768 S8x4096x64 where
  lhsContracting := [2]
  rhsContracting := [1]
  lhsNonContracting := [0, 1]
  rhsNonContracting := [0]
  lhsBatch := []
  rhsBatch := []
  wf := dot_S8x4096x768_S64x768_S8x4096x64_2_1_01_0_n_n_wf
def dot_S1024x768_S64x768_S1024x64_1_1_0_0_n_n : DotDims S1024x768 S64x768 S1024x64 where
  lhsContracting := [1]
  rhsContracting := [1]
  lhsNonContracting := [0]
  rhsNonContracting := [0]
  lhsBatch := []
  rhsBatch := []
  wf := dot_S1024x768_S64x768_S1024x64_1_1_0_0_n_n_wf
def dot_S8x4096x64_S1024x64_S8x4096x1024_2_1_01_0_n_n : DotDims S8x4096x64 S1024x64 S8x4096x1024 where
  lhsContracting := [2]
  rhsContracting := [1]
  lhsNonContracting := [0, 1]
  rhsNonContracting := [0]
  lhsBatch := []
  rhsBatch := []
  wf := dot_S8x4096x64_S1024x64_S8x4096x1024_2_1_01_0_n_n_wf

class Facts : Prop extends Facts₀ where

variable [Facts]
-- ==== Proof.Head.lean ====
/-
  The label-scoring head over the extended reals, as functions of the argument arrays.

  A hidden unit is a linear form floored at zero: for a feature row `x`, a weight row `w` and a bias `b`,
  `unit x w b = max (∑ i, x i * w i + b) 0` (the zero is kept as the zero word's value, the same word in both
  programs). The head scores sample `(p, r)` against label `l` by
      ∑ h, unit (data p r) (Wd h) (bd h) * unit (label l) (Wl h) (bl h) * Wo h   + bo,
  a sum of three-fold products over the 64 hidden units. One program multiplies the output weight `Wo h` into the
  label's unit first, the other into the sample's unit first: the two groupings of each three-fold product agree
  because the product of extended reals is commutative and associative (no finiteness is needed: there is no
  distribution over a sum and no cancellation).
-/
import Idealize.ShloMosaic.Lib.ValueIdx
import Idealize.ShloMosaic.PureOps.Ideal.Laws

noncomputable section

namespace Cert.Head

open Idealize.ShloMosaic Idealize.ShloMosaic.ValueIdx

/-- One hidden unit: the linear form of a feature row and a weight row, plus the bias, floored at the zero word. -/
def unit (x w : Fin 768 → EReal) (b : EReal) : EReal :=
  max ((∑ i : Fin 768, x i * w i) + b) (Ideal.ofBits .f32 0x00000000#32)

/-- The label side with the output weight folded in: entry `(l, h)` is the label's hidden unit times `Wo h`. -/
def labelWeights (label : FVec Ideal ⟨2, ![1024, 768]⟩ .f32) (Wl : FVec Ideal ⟨2, ![64, 768]⟩ .f32)
    (bl : Fin 64 → EReal) (Wo : Fin 64 → EReal) : FVec Ideal ⟨2, ![1024, 64]⟩ .f32 :=
  fun y => unit (fun i => label (ix2 (y 0) i)) (fun i => Wl (ix2 (y 1) i)) (bl (y 1)) * Wo (y 1)

/-- The scores of a tall matrix of samples against a matrix `lw` of per-label weights: entry `(r, l)` is the inner
    product over the hidden units of the sample's units with row `l` of `lw`, plus the output bias. -/
def scores {R : ℕ} (rows : FVec Ideal ⟨2, ![R, 768]⟩ .f32) (Wd : FVec Ideal ⟨2, ![64, 768]⟩ .f32)
    (bd : Fin 64 → EReal) (lw : FVec Ideal ⟨2, ![1024, 64]⟩ .f32) (bo : EReal) : FVec Ideal ⟨2, ![R, 1024]⟩ .f32 :=
  fun y => (∑ h : Fin 64, unit (fun i => rows (ix2 (y 0) i)) (fun i => Wd (ix2 h i)) (bd h) * lw (ix2 (y 1) h)) + bo

/-- The head on the arguments as given: samples stacked `[8, 4096, 768]`, the output weight grouped with the label. -/
def logits (data : FVec Ideal ⟨3, ![8, 4096, 768]⟩ .f32) (label : FVec Ideal ⟨2, ![1024, 768]⟩ .f32)
    (Wd : FVec Ideal ⟨2, ![64, 768]⟩ .f32) (bd : FVec Ideal ⟨1, ![64]⟩ .f32) (Wl : FVec Ideal ⟨2, ![64, 768]⟩ .f32)
    (bl : FVec Ideal ⟨1, ![64]⟩ .f32) (Wo : FVec Ideal ⟨2, ![1, 64]⟩ .f32) (bo : FVec Ideal ⟨1, ![1]⟩ .f32) :
    FVec Ideal ⟨3, ![8, 4096, 1024]⟩ .f32 :=
  fun j => (∑ h : Fin 64, unit (fun i => data (ix3 (j 0) (j 1) i)) (fun i => Wd (ix2 h i)) (bd (ix1 h))
      * (unit (fun i => label (ix2 (j 2) i)) (fun i => Wl (ix2 h i)) (bl (ix1 h)) * Wo (ix2 (0 : Fin 1) h)))
    + bo (ix1 (0 : Fin 1))

/-- The label weights at `(l, h)`. -/
theorem labelWeights_apply (label : FVec Ideal ⟨2, ![1024, 768]⟩ .f32) (Wl : FVec Ideal ⟨2, ![64, 768]⟩ .f32)
    (bl : Fin 64 → EReal) (Wo : Fin 64 → EReal) (l : Fin 1024) (h : Fin 64) :
    labelWeights label Wl bl Wo (ix2 l h)
      = unit (fun i => label (ix2 l i)) (fun i => Wl (ix2 h i)) (bl h) * Wo h := rfl

/-- The scores at `(r, l)`. -/
theorem scores_apply {R : ℕ} (rows : FVec Ideal ⟨2, ![R, 768]⟩ .f32) (Wd : FVec Ideal ⟨2, ![64, 768]⟩ .f32)
    (bd : Fin 64 → EReal) (lw : FVec Ideal ⟨2, ![1024, 64]⟩ .f32) (bo : EReal) (r : Fin R) (l : Fin 1024) :
    scores rows Wd bd lw bo (ix2 r l)
      = (∑ h : Fin 64, unit (fun i => rows (ix2 r i)) (fun i => Wd (ix2 h i)) (bd h) * lw (ix2 l h)) + bo := rfl

/-- The logits at `(p, r, l)`. -/
theorem logits_apply (data : FVec Ideal ⟨3, ![8, 4096, 768]⟩ .f32) (label : FVec Ideal ⟨2, ![1024, 768]⟩ .f32)
    (Wd : FVec Ideal ⟨2, ![64, 768]⟩ .f32) (bd : FVec Ideal ⟨1, ![64]⟩ .f32) (Wl : FVec Ideal ⟨2, ![64, 768]⟩ .f32)
    (bl : FVec Ideal ⟨1, ![64]⟩ .f32) (Wo : FVec Ideal ⟨2, ![1, 64]⟩ .f32) (bo : FVec Ideal ⟨1, ![1]⟩ .f32)
    (p : Fin 8) (r : Fin 4096) (l : Fin 1024) :
    logits data label Wd bd Wl bl Wo bo (ix3 p r l)
      = (∑ h : Fin 64, unit (fun i => data (ix3 p r i)) (fun i => Wd (ix2 h i)) (bd (ix1 h))
          * (unit (fun i => label (ix2 l i)) (fun i => Wl (ix2 h i)) (bl (ix1 h)) * Wo (ix2 (0 : Fin 1) h)))
        + bo (ix1 (0 : Fin 1)) := rfl

/-- The two groupings of a three-fold product: `d * (l * o) = (d * o) * l`. -/
theorem regroup (d l o : EReal) : d * (l * o) = (d * o) * l := by
  rw [mul_comm l o, mul_assoc]

end Cert.Head

end
-- ==== Proof.LibMatmulPlain.lean ====
/-
  A plain matrix product read at an index.

  For `l` of `M` rows and `K` columns and `r` of `K` rows and `N` columns, the product that contracts the columns of
  `l` with the rows of `r` into a zero accumulator has, at `(p, n)`, the inner product of row `p` of `l` with column
  `n` of `r`: `∑ k, l (p, k) * r (k, n)`. On the extended reals the accumulator's zero adds nothing, and the
  contraction index, which the dimension record keeps as a one-axis shape, is re-indexed by its one coordinate.
  Stated for the dimension record `DotDims.plain M K N`; a printed record with the same six lists is that record (its
  last field is a proof), so the lemma applies to it after a `show`.
-/
import Idealize.ShloMosaic.Lib.ValueIdx
import Idealize.ShloMosaic.PureOps.Ideal.Laws

noncomputable section

namespace Cert.LibMatmulPlain

open Idealize.ShloMosaic Idealize.ShloMosaic.ValueIdx

variable {M K N : ℕ}

/-- The left operand's index keeps the output's row. -/
theorem lhs_axis0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column is the contraction coordinate. -/
theorem lhs_axis1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_axis0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_axis1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- The two operand indices over the output index `(p, n)` and the contraction coordinate `k`. -/
theorem lhsIdx_eq (p : Fin M) (n : Fin N) (k : Fin K) :
    (DotDims.plain M K N).lhsIdx (ix2 p n) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

theorem rhsIdx_eq (p : Fin M) (n : Fin N) (k : Fin K) :
    (DotDims.plain M K N).rhsIdx (ix2 p n) ((contrEquiv1 (DotDims.plain M K N) K rfl rfl).symm k) = ix2 k n :=
  funext fun a => Fin.ext (by
    match a with
    | ⟨0, _⟩ => exact (rhs_axis0 _ _).trans (contrEquiv1_symm_val (DotDims.plain M K N) K rfl rfl k)
    | ⟨1, _⟩ => exact rhs_axis1 _ _)

/-- `l · r` into the zero accumulator, at `(p, n)`: the inner product of row `p` of `l` and column `n` of `r`. -/
theorem matmul_zero_apply {φ₁ φ₂ : FTy} (l : FVec Ideal ⟨2, ![M, K]⟩ φ₁) (r : FVec Ideal ⟨2, ![K, N]⟩ φ₂)
    (prec : Option ContractPrecision) (p : Fin M) (n : Fin N) :
    FloatOps.matmul (DotDims.plain M K N) prec l r (constant ⟨2, ![M, N]⟩ .f32 0x00000000#32) (ix2 p n)
      = ∑ k : Fin K, l (ix2 p k) * r (ix2 k n) := by
  rw [Ideal.matmul_constant_zero_apply, ← Equiv.sum_comp (contrEquiv1 (DotDims.plain M K N) K rfl rfl).symm]
  exact Finset.sum_congr rfl fun k _ => by rw [lhsIdx_eq, rhsIdx_eq]

/-- The host's product of the same two matrices, at `(p, n)`: the same inner product, whatever the schedule. -/
theorem dotGeneral_apply {φ₁ φ₂ : FTy} (l : FVec Ideal ⟨2, ![M, K]⟩ φ₁) (r : FVec Ideal ⟨2, ![K, N]⟩ φ₂)
    (prec : Option ContractPrecision) (sched : HostSchedule) (p : Fin M) (n : Fin N) :
    FloatOps.dotGeneral (DotDims.plain M K N) prec sched l r (ix2 p n) = ∑ k : Fin K, l (ix2 p k) * r (ix2 k n) := by
  rw [Ideal.dotGeneral_apply, ← Equiv.sum_comp (contrEquiv1 (DotDims.plain M K N) K rfl rfl).symm]
  exact Finset.sum_congr rfl fun k _ => by rw [lhsIdx_eq, rhsIdx_eq]

end Cert.LibMatmulPlain

end
-- ==== Proof.Bodies.lean ====
/-
  What the two kernel bodies compute, entry by entry, over the extended reals.

  The label kernel forms, for label row `l` and hidden unit `h`, the linear form of the label's features against
  the weight row `h` (a matrix product with the weights transposed, into a zero accumulator), adds the bias row,
  floors at zero and multiplies by the output-weight row: entry `(l, h)` of the label weights. The scoring kernel
  forms a block's hidden units in the same way and contracts them over `h` with the label weights transposed, then
  adds the one-entry bias. A change of float format is the identity on the extended reals, a transpose swaps the
  two coordinates, a one-row array broadcast over rows reads its row, and each matrix product into zero is the
  plain sum over the contracted coordinate.
-/
import proofs.«118346_j73701638800241_1_alg».proof.Proof.Gen.KernelIdeal.Skeleton
import proofs.«118346_j73701638800241_1_alg».proof.Proof.Head
import proofs.«118346_j73701638800241_1_alg».proof.Proof.LibMatmulPlain
import Idealize.ShloMosaic.Lib.ValueLayout
import Idealize.ShloMosaic.Lib.Pipeline.Value

noncomputable section

namespace Cert.KernelIdeal.Bodies

open Idealize.ShloMosaic Idealize.ShloMosaic.ValueIdx Cert.KernelIdeal Cert.KernelIdeal.Gen Cert.Head

/-- The printed dimension record of the features-by-weights product is the plain `1024 × 768` by `768 × 64` one. -/
theorem dot_features : dot_S1024x768_S768x64_S1024x64_1_0_0_1_n_n = DotDims.plain 1024 768 64 := rfl

/-- The printed dimension record of the units-by-label-weights product is the plain `1024 × 64` by `64 × 1024` one. -/
theorem dot_units : dot_S1024x64_S64x1024_S1024x1024_1_0_0_1_n_n = DotDims.plain 1024 64 1024 := rfl

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax =>
    match ax with
    | ⟨0, _⟩ => rfl
    | ⟨1, _⟩ => rfl

/-- The hidden units of a block of 1024 feature rows: the product with the transposed weights into zero, plus the
    bias row, floored at the zero word, at `(r, h)`. -/
theorem units_apply (x : FVec Ideal S1024x768 .f32) (w : FVec Ideal S64x768 .f32) (b : FVec Ideal S1x64 .f32)
    (r : Fin 1024) (h : Fin 64) :
    maximumf (addf (matmul dot_S1024x768_S768x64_S1024x64_1_0_0_1_n_n none (truncf .bf16 x bitsLt_bf16_f32)
        (transpose S768x64 [1, 0] (truncf .bf16 w bitsLt_bf16_f32) transposes_S64x768_p1_0_S768x64)
        (constant S1024x64 .f32 0x00000000#32))
      (broadcastTo S1024x64 b broadcasts_S1x64_S1024x64))
      (broadcast S1024x64 (Scalar.ofBits .f32 0x00000000#32)) (ix2 r h)
    = unit (fun i => x (ix2 r i)) (fun i => w (ix2 h i)) (b (ix2 (0 : Fin 1) h)) := by
  rw [maximumf_apply, addf_apply, broadcast_apply, broadcastTo_1b_ab_apply]
  unfold matmul
  rw [dot_features, LibMatmulPlain.matmul_zero_apply]
  unfold unit
  refine congrArg (fun s : EReal => max (s + b (ix2 (0 : Fin 1) h)) (Ideal.ofBits .f32 0x00000000#32))
    (Finset.sum_congr rfl fun k _ => ?_)
  exact congrArg (fun v : EReal => x (ix2 r k) * v) (transpose_ix2_apply _ transposes_S64x768_p1_0_S768x64 k h)

/-- The label kernel's stored value is the label weights of its four blocks. -/
theorem label_body (x0 : Vec Ideal S1024x768 .f32) (x1 : Vec Ideal S64x768 .f32) (x2 x3 : Vec Ideal S1x64 .f32) :
    k0_pay1 (F := Ideal) x0 x1 x2 x3
      = labelWeights x0 x1 (fun h => x2 (ix2 (0 : Fin 1) h)) (fun h => x3 (ix2 (0 : Fin 1) h)) := by
  funext y
  obtain ⟨l, h, rfl⟩ : ∃ (l : Fin 1024) (h : Fin 64), y = ix2 l h := ⟨y 0, y 1, eq_ix2 y⟩
  show mulf _ _ (ix2 l h) = _
  simp only [shapeCast_self]
  rw [mulf_apply, broadcastTo_1b_ab_apply, units_apply]
  rfl

/-- The scoring kernel's stored value is the scores of its block of rows against the label weights it is given. -/
theorem score_body (x0 : Vec Ideal S1024x768 .f32) (x1 : Vec Ideal S64x768 .f32) (x2 : Vec Ideal S1x64 .f32)
    (x3 : Vec Ideal S1024x64 .f32) (x4 : Vec Ideal S1x1 .f32) :
    k1_pay1 (F := Ideal) x0 x1 x2 x3 x4
      = scores x0 x1 (fun h => x2 (ix2 (0 : Fin 1) h)) x3 (x4 (ix2 (0 : Fin 1) (0 : Fin 1))) := by
  funext y
  obtain ⟨r, l, rfl⟩ : ∃ (r : Fin 1024) (l : Fin 1024), y = ix2 r l := ⟨y 0, y 1, eq_ix2 y⟩
  show addf (matmul dot_S1024x64_S64x1024_S1024x1024_1_0_0_1_n_n none _ _ _) _ (ix2 r l) = _
  rw [addf_apply, broadcastTo_11_ab_apply]
  unfold matmul
  rw [dot_units, LibMatmulPlain.matmul_zero_apply]
  simp only [shapeCast_self]
  unfold scores
  refine congrArg (fun s : EReal => s + x4 (ix2 (0 : Fin 1) (0 : Fin 1))) (Finset.sum_congr rfl fun h _ => ?_)
  rw [truncf_apply]
  refine (congrArg (fun v : EReal => _ * v) (transpose_ix2_apply _ transposes_S1024x64_p1_0_S64x1024 h l)).trans ?_
  rw [truncf_apply]
  exact congrArg (fun u : EReal => u * x3 (ix2 l h)) (units_apply x0 x1 x2 r h)

end Cert.KernelIdeal.Bodies

end
-- ==== Proof.LabelRegion.lean ====
/-
  The label kernel's region: its one result array after the region, as a function of the arrays the region finds.

  The grid has a single point and every window's block is its whole array (block index `(0, 0)`, block size the
  array's size), so the point's input blocks are the arrays themselves, read at the same coordinates, and the one
  block the point writes back fills the result array: the array ends as the label weights of the four input arrays.
-/
import proofs.«118346_j73701638800241_1_alg».proof.Proof.Gen.KernelIdeal.Frame
import proofs.«118346_j73701638800241_1_alg».proof.Proof.Bodies

set_option maxRecDepth 16384

noncomputable section

namespace Cert.KernelIdeal.LabelRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Head

variable (V : (c : Dev nD) → (b : Ref sig .tc) → Buf (Elt Ideal) ((c : Thread nD τ).loc b))

theorem zeros : (![0, 0] : Fin 2 → Nat) = fun _ => 0 := funext fun a => by fin_cases a <;> rfl

/-- The result array as the label weights of the four arrays the region reads. -/
abbrev weightsOf (c : Dev nD) : FVec Ideal S1024x64 .f32 :=
  labelWeights (V c main_arg1) (V c main_arg4) (fun h => V c main_v1 (ix2 (0 : Fin 1) h))
    (fun h => V c main_arg6 (ix2 (0 : Fin 1) h))

/-- Every window's block index is `(0, 0)` at every point of the grid. -/
theorem index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The label block at the point is the label array. -/
theorem block_label (c : Dev nD) (t : Fin cfg0.N) (y : S1024x768.Idx) : iblk0 V c 0 t y = V c main_arg1 y := by
  obtain ⟨e0, e1, -⟩ := index_zero t
  show V c main_arg1 (((cfg0.win 0).blk t).view.emb y) = V c main_arg1 y
  refine congrArg (V c main_arg1) (funext fun a => Fin.ext ?_)
  match a with
  | ⟨0, _⟩ => show win0_0.index t (0 : Fin 2) * 1024 + 1 * (y 0).val = (y 0).val; omega
  | ⟨1, _⟩ => show win0_0.index t (1 : Fin 2) * 768 + 1 * (y 1).val = (y 1).val; omega

/-- The weight block at the point is the weight array. -/
theorem block_weights (c : Dev nD) (t : Fin cfg0.N) (y : S64x768.Idx) : iblk0 V c 1 t y = V c main_arg4 y := by
  obtain ⟨-, -, e0, e1, -⟩ := index_zero t
  show V c main_arg4 (((cfg0.win 1).blk t).view.emb y) = V c main_arg4 y
  refine congrArg (V c main_arg4) (funext fun a => Fin.ext ?_)
  match a with
  | ⟨0, _⟩ => show win0_1.index t (0 : Fin 2) * 64 + 1 * (y 0).val = (y 0).val; omega
  | ⟨1, _⟩ => show win0_1.index t (1 : Fin 2) * 768 + 1 * (y 1).val = (y 1).val; omega

/-- The bias block at the point is the bias row. -/
theorem block_bias (c : Dev nD) (t : Fin cfg0.N) (y : S1x64.Idx) : iblk0 V c 2 t y = V c main_v1 y := by
  obtain ⟨-, -, -, -, e0, e1, -⟩ := index_zero t
  show V c main_v1 (((cfg0.win 2).blk t).view.emb y) = V c main_v1 y
  refine congrArg (V c main_v1) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- The output-weight block at the point is the output-weight row. -/
theorem block_out (c : Dev nD) (t : Fin cfg0.N) (y : S1x64.Idx) : iblk0 V c 3 t y = V c main_arg6 y := by
  obtain ⟨-, -, -, -, -, -, e0, e1, -⟩ := index_zero t
  show V c main_arg6 (((cfg0.win 3).blk t).view.emb y) = V c main_arg6 y
  refine congrArg (V c main_arg6) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- What the point writes back is its block of the label weights of the arrays. -/
theorem flushed (c : Dev nD) (t : Fin cfg0.N) :
    (dat0 V c).flushed 4 t = ((cfg0.win 4).blk t).view.read (Elt Ideal) (weightsOf V c) := by
  show (cfg0.win 4).cut (grid0.coords t) ((dat0 V c).after 4 t) = _
  rw [after0_4]
  unfold out0_4
  rw [View.canon_unit_zero zeros]
  simp only [View.ld_unit_zero (S := S1024x768) zeros, View.ld_unit_zero (S := S64x768) zeros,
    View.ld_unit_zero (S := S1x64) zeros]
  rw [Bodies.label_body]
  obtain ⟨-, -, -, -, -, -, -, -, e0, e1⟩ := index_zero t
  funext j
  have hj : ((cfg0.win 4).blk t).view.emb j = j := by
    funext a; apply Fin.ext
    match a with
    | ⟨0, _⟩ => show win0_4.index t (0 : Fin 2) * 1024 + 1 * (j 0).val = (j 0).val; omega
    | ⟨1, _⟩ => show win0_4.index t (1 : Fin 2) * 64 + 1 * (j 1).val = (j 1).val; omega
  show labelWeights (iblk0 V c 0 t) (iblk0 V c 1 t) (fun h => iblk0 V c 2 t (ix2 (0 : Fin 1) h))
      (fun h => iblk0 V c 3 t (ix2 (0 : Fin 1) h)) j = weightsOf V c (((cfg0.win 4).blk t).view.emb j)
  rw [hj]
  unfold weightsOf labelWeights
  simp only [block_label, block_weights, block_bias, block_out]

/-- An index of the result array is in the point's block iff each coordinate is in the block's range. -/
theorem mem_block (t : Fin cfg0.N) (i : S1024x64.Idx) :
    i ∈ ((cfg0.win 4).blk t).view.set ↔ ∀ a : Fin 2, win0_4.index t a * S1024x64.size a ≤ (i a).val
      ∧ (i a).val < win0_4.index t a * S1024x64.size a + S1024x64.size a := by
  show i ∈ ((View.whole main_v3).slice (win0_4.rect t)).set ↔ _
  rw [View.set_slice_whole, Rect.mem_set_unit]
  exact Iff.rfl

/-- The single point's block holds every index of the result array. -/
theorem covered (i : S1024x64.Idx) :
    ∃ t : Fin cfg0.N, (cfg0.win 4).flush t = true ∧ i ∈ ((cfg0.win 4).blk t).view.set := by
  refine ⟨⟨0, by decide⟩, flush0_4 _, ?_⟩
  obtain ⟨-, -, -, -, -, -, -, -, e0, e1⟩ := index_zero ⟨0, by decide⟩
  rw [mem_block]
  intro a
  have h0 : (i 0).val < 1024 := (i 0).isLt
  have h1 : (i 1).val < 64 := (i 1).isLt
  match a with
  | ⟨0, _⟩ =>
    show win0_4.index ⟨0, _⟩ (0 : Fin 2) * 1024 ≤ (i 0).val ∧ (i 0).val < win0_4.index ⟨0, _⟩ (0 : Fin 2) * 1024 + 1024
    omega
  | ⟨1, _⟩ =>
    show win0_4.index ⟨0, _⟩ (1 : Fin 2) * 64 ≤ (i 1).val ∧ (i 1).val < win0_4.index ⟨0, _⟩ (1 : Fin 2) * 64 + 64
    omega

/-- The result array after the region: the label weights of the arrays the region found. -/
theorem final (c : Dev nD) : (dat0 V c).arrAt 4 cfg0.N = weightsOf V c :=
  (dat0 V c).arrAt_eq_of_cover 4 (weightsOf V c) (fun t _ => flushed V c t) covered

end Cert.KernelIdeal.LabelRegion

end
-- ==== Proof.ScoreRegion.lean ====
/-
  The scoring kernel's region: its result array after the region, as a function of the arrays the region finds.

  The grid has 32 points. At point `t` the sample window holds rows `t * 1024 … t * 1024 + 1023` of the tall sample
  matrix (block index `(t, 0)`, all 768 columns) and the result window the same rows of the score matrix (all 1024
  columns); the weights, the bias row, the label weights and the one-entry bias are whole at every point. So the
  block a point writes back is that point's rows of one function of the arrays, the scores, and the 32 blocks of
  1024 rows tile the 32768 rows: row `r` lies in the block of point `r / 1024`.
-/
import proofs.«118346_j73701638800241_1_alg».proof.Proof.Gen.KernelIdeal.Frame
import proofs.«118346_j73701638800241_1_alg».proof.Proof.Bodies

set_option maxRecDepth 16384

noncomputable section

namespace Cert.KernelIdeal.ScoreRegion

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Head

variable (V : (c : Dev nD) → (b : Ref sig .tc) → Buf (Elt Ideal) ((c : Thread nD τ).loc b))

theorem zeros : (![0, 0] : Fin 2 → Nat) = fun _ => 0 := funext fun a => by fin_cases a <;> rfl

/-- The result array as the scores of the tall sample matrix against the label weights the region reads. -/
abbrev scoresOf (c : Dev nD) : FVec Ideal S32768x1024 .f32 :=
  scores (R := 32768) (V c main_v4) (V c main_arg2) (fun h => V c main_v0 (ix2 (0 : Fin 1) h)) (V c main_v3)
    (V c main_v2 (ix2 (0 : Fin 1) (0 : Fin 1)))

/-- The block indices over the grid: the sample window and the result window are at block row `t`, column 0; every
    other window is at `(0, 0)`. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The weight block at a point is the weight array. -/
theorem block_weights (c : Dev nD) (t : Fin cfg1.N) (y : S64x768.Idx) : iblk1 V c 1 t y = V c main_arg2 y := by
  obtain ⟨-, -, e0, e1, -⟩ := index_facts t
  show V c main_arg2 (((cfg1.win 1).blk t).view.emb y) = V c main_arg2 y
  refine congrArg (V c main_arg2) (funext fun a => Fin.ext ?_)
  match a with
  | ⟨0, _⟩ => show win1_1.index t (0 : Fin 2) * 64 + 1 * (y 0).val = (y 0).val; omega
  | ⟨1, _⟩ => show win1_1.index t (1 : Fin 2) * 768 + 1 * (y 1).val = (y 1).val; omega

/-- The bias block at a point is the bias row. -/
theorem block_bias (c : Dev nD) (t : Fin cfg1.N) (y : S1x64.Idx) : iblk1 V c 2 t y = V c main_v0 y := by
  obtain ⟨-, -, -, -, e0, e1, -⟩ := index_facts t
  show V c main_v0 (((cfg1.win 2).blk t).view.emb y) = V c main_v0 y
  refine congrArg (V c main_v0) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The label-weight block at a point is the label-weight array. -/
theorem block_labelWeights (c : Dev nD) (t : Fin cfg1.N) (y : S1024x64.Idx) : iblk1 V c 3 t y = V c main_v3 y := by
  obtain ⟨-, -, -, -, -, -, e0, e1, -⟩ := index_facts t
  show V c main_v3 (((cfg1.win 3).blk t).view.emb y) = V c main_v3 y
  refine congrArg (V c main_v3) (funext fun a => Fin.ext ?_)
  match a with
  | ⟨0, _⟩ => show win1_3.index t (0 : Fin 2) * 1024 + 1 * (y 0).val = (y 0).val; omega
  | ⟨1, _⟩ => show win1_3.index t (1 : Fin 2) * 64 + 1 * (y 1).val = (y 1).val; omega

/-- The output-bias block at a point is the one-entry bias array. -/
theorem block_outBias (c : Dev nD) (t : Fin cfg1.N) (y : S1x1.Idx) : iblk1 V c 4 t y = V c main_v2 y := by
  obtain ⟨-, -, -, -, -, -, -, -, e0, e1, -⟩ := index_facts t
  show V c main_v2 (((cfg1.win 4).blk t).view.emb y) = V c main_v2 y
  refine congrArg (V c main_v2) (funext fun a => Fin.ext ?_)
  match a with
  | ⟨0, _⟩ => show win1_4.index t (0 : Fin 2) * 1 + 1 * (y 0).val = (y 0).val; omega
  | ⟨1, _⟩ => show win1_4.index t (1 : Fin 2) * 1 + 1 * (y 1).val = (y 1).val; omega

/-- Row `r` of the sample block at point `t` is row `t * 1024 + r` of the tall sample matrix. -/
theorem block_rows (c : Dev nD) (t : Fin cfg1.N) (r : Fin 1024) (i : Fin 768) (row : Fin 32768)
    (hrow : row.val = t.val * 1024 + r.val) : iblk1 V c 0 t (ix2 r i) = V c main_v4 (ix2 row i) := by
  obtain ⟨e0, e1, -⟩ := index_facts t
  show V c main_v4 (((cfg1.win 0).blk t).view.emb (ix2 r i)) = V c main_v4 (ix2 row i)
  refine congrArg (V c main_v4) (funext fun a => Fin.ext ?_)
  match a with
  | ⟨0, _⟩ => show win1_0.index t (0 : Fin 2) * 1024 + 1 * r.val = row.val; omega
  | ⟨1, _⟩ => show win1_0.index t (1 : Fin 2) * 768 + 1 * i.val = i.val; omega

/-- Entry `(r, l)` of the block the body computes at point `t` is entry `(t * 1024 + r, l)` of the scores. -/
theorem block_scores (c : Dev nD) (t : Fin cfg1.N) (r l : Fin 1024) :
    scores (R := 1024) (iblk1 V c 0 t) (iblk1 V c 1 t) (fun h => iblk1 V c 2 t (ix2 (0 : Fin 1) h)) (iblk1 V c 3 t)
        (iblk1 V c 4 t (ix2 (0 : Fin 1) (0 : Fin 1))) (ix2 r l)
      = scoresOf V c (((cfg1.win 5).blk t).view.emb (ix2 r l)) := by
  obtain ⟨-, -, -, -, -, -, -, -, -, -, e0, e1⟩ := index_facts t
  have ht : t.val < 32 := t.isLt
  have hemb : ((cfg1.win 5).blk t).view.emb (ix2 r l) = ix2 (⟨t.val * 1024 + r.val, by omega⟩ : Fin 32768) l := by
    funext a; apply Fin.ext
    match a with
    | ⟨0, _⟩ => show win1_5.index t (0 : Fin 2) * 1024 + 1 * r.val = t.val * 1024 + r.val; omega
    | ⟨1, _⟩ => show win1_5.index t (1 : Fin 2) * 1024 + 1 * l.val = l.val; omega
  rw [hemb]
  unfold scoresOf scores
  simp only [block_weights, block_bias, block_labelWeights, block_outBias]
  refine congrArg (fun s : EReal => s + V c main_v2 (ix2 (0 : Fin 1) (0 : Fin 1))) (Finset.sum_congr rfl fun h _ => ?_)
  refine congrArg (fun u : EReal => u * V c main_v3 (ix2 l h)) ?_
  refine congrArg (fun x : Fin 768 → EReal => unit x (fun i => V c main_arg2 (ix2 h i)) (V c main_v0 (ix2 (0 : Fin 1) h)))
    (funext fun i => ?_)
  exact block_rows V c t r i _ rfl

/-- What point `t` writes back is its block of the scores of the arrays. -/
theorem flushed (c : Dev nD) (t : Fin cfg1.N) :
    (dat1 V c).flushed 5 t = ((cfg1.win 5).blk t).view.read (Elt Ideal) (scoresOf V c) := by
  show (cfg1.win 5).cut (grid1.coords t) ((dat1 V c).after 5 t) = _
  rw [after1_5]
  unfold out1_5
  rw [View.canon_unit_zero zeros]
  simp only [View.ld_unit_zero (S := S1024x768) zeros, View.ld_unit_zero (S := S64x768) zeros,
    View.ld_unit_zero (S := S1x64) zeros, View.ld_unit_zero (S := S1024x64) zeros, View.ld_unit_zero (S := S1x1) zeros]
  rw [Bodies.score_body]
  funext j
  obtain ⟨r, l, rfl⟩ : ∃ (r : Fin 1024) (l : Fin 1024), j = ix2 r l := ⟨j 0, j 1, eq_ix2 j⟩
  exact block_scores V c t r l

/-- An index of the result array is in point `t`'s block iff each coordinate is in the block's range. -/
theorem mem_block (t : Fin cfg1.N) (i : S32768x1024.Idx) :
    i ∈ ((cfg1.win 5).blk t).view.set ↔ ∀ a : Fin 2, win1_5.index t a * S1024x1024.size a ≤ (i a).val
      ∧ (i a).val < win1_5.index t a * S1024x1024.size a + S1024x1024.size a := by
  show i ∈ ((View.whole main_v5).slice (win1_5.rect t)).set ↔ _
  rw [View.set_slice_whole, Rect.mem_set_unit]
  exact Iff.rfl

/-- Row `r` of the result array lies in the block of point `r / 1024`. -/
theorem covered (i : S32768x1024.Idx) :
    ∃ t : Fin cfg1.N, (cfg1.win 5).flush t = true ∧ i ∈ ((cfg1.win 5).blk t).view.set := by
  have h0 : (i 0).val < 32768 := (i 0).isLt
  have h1 : (i 1).val < 1024 := (i 1).isLt
  let t : Fin cfg1.N := ⟨(i 0).val / 1024, by show (i 0).val / 1024 < 32; omega⟩
  obtain ⟨-, -, -, -, -, -, -, -, -, -, e0, e1⟩ := index_facts t
  have et : t.val = (i 0).val / 1024 := rfl
  refine ⟨t, flush1_5 t, ?_⟩
  rw [mem_block]
  intro a
  match a with
  | ⟨0, _⟩ =>
    show win1_5.index t (0 : Fin 2) * 1024 ≤ (i 0).val ∧ (i 0).val < win1_5.index t (0 : Fin 2) * 1024 + 1024
    omega
  | ⟨1, _⟩ =>
    show win1_5.index t (1 : Fin 2) * 1024 ≤ (i 1).val ∧ (i 1).val < win1_5.index t (1 : Fin 2) * 1024 + 1024
    omega

/-- The result array after the region: the scores of the arrays the region found. -/
theorem final (c : Dev nD) : (dat1 V c).arrAt 5 cfg1.N = scoresOf V c :=
  (dat1 V c).arrAt_eq_of_cover 5 (scoresOf V c) (fun t _ => flushed V c t) covered

end Cert.KernelIdeal.ScoreRegion

end
-- ==== Proof.LibFlattenRows.lean ====
/-
  A stack of matrices laid out as one tall matrix, and back, read at an index.

  Reshaping an array of `a` matrices of `b` rows and `c` columns to one matrix of `a * b` rows and `c` columns moves
  nothing: row-major, entry `(p, r, k)` of the stack sits at position `(p * b + r) * c + k`, and entry `(row, k)` of the
  tall matrix at `row * c + k`, so the two agree exactly when `row = p * b + r`. The same holds for the reshape back.
  The tall matrix's row count is a free extent `n`, so that the lemmas apply to a printed shape by unification; the row
  is given with the equation that places it.
-/
import Idealize.ShloMosaic.Lib.ValueLayout

noncomputable section

namespace Cert.LibFlattenRows

open Idealize.ShloMosaic Idealize.ShloMosaic.ValueIdx

variable {α : Type}

/-- An `[a, b, c]` array cast to `[n, c]` reads, at row `p * b + r` and column `k`, the operand at `(p, r, k)`. -/
theorem flatten_apply {a b c n : ℕ} (x : (⟨3, ![a, b, c]⟩ : Shape).Idx → α)
    (h : (⟨3, ![a, b, c]⟩ : Shape).ShapeCasts ⟨2, ![n, c]⟩) (p : Fin a) (r : Fin b) (k : Fin c) (row : Fin n)
    (hrow : row.val = p.val * b + r.val) : shapeCast ⟨2, ![n, c]⟩ x h (ix2 row k) = x (ix3 p r k) :=
  shapeCast_apply x h _ _ (by
    rw [Shape.rowMajor_val_three, Shape.rowMajor_val_two]
    show (p.val * b + r.val) * c + k.val = row.val * c + k.val
    rw [hrow])

/-- An `[n, c]` array cast to `[a, b, c]` reads, at `(p, r, k)`, the operand at row `p * b + r` and column `k`. -/
theorem unflatten_apply {a b c n : ℕ} (y : (⟨2, ![n, c]⟩ : Shape).Idx → α)
    (h : (⟨2, ![n, c]⟩ : Shape).ShapeCasts ⟨3, ![a, b, c]⟩) (p : Fin a) (r : Fin b) (k : Fin c) (row : Fin n)
    (hrow : row.val = p.val * b + r.val) : shapeCast ⟨3, ![a, b, c]⟩ y h (ix3 p r k) = y (ix2 row k) :=
  shapeCast_apply y h _ _ (by
    rw [Shape.rowMajor_val_two, Shape.rowMajor_val_three]
    show row.val * c + k.val = (p.val * b + r.val) * c + k.val
    rw [hrow])

end Cert.LibFlattenRows

end
-- ==== Proof.Chain.lean ====
/-
  The kernel program's result array as the head's logits of the launch memory.

  The run's last boundary holds, at the result array, the score matrix `[32768, 1024]` laid out as
  `[8, 4096, 1024]`: entry `(p, r, l)` is the score matrix at row `p * 4096 + r`. The score matrix is the scores of
  the arrays the second region finds: the samples laid out as a tall matrix (row `p * 4096 + r` is sample `(p, r)`),
  the sample-side weights as launched, the sample-side bias as one row, the first region's result, and the output bias
  as one entry. The first region's result is the label weights of the arrays IT finds: the label features, the
  label-side weights and the output weight row as launched, and the label-side bias as one row. No host operation and
  no region writes an argument array, and a vector laid out as one row keeps its entries, so everything reads back to
  the launch memory.
-/
import proofs.«118346_j73701638800241_1_alg».proof.Proof.Gen.KernelIdeal.Frame
import proofs.«118346_j73701638800241_1_alg».proof.Proof.LabelRegion
import proofs.«118346_j73701638800241_1_alg».proof.Proof.ScoreRegion
import proofs.«118346_j73701638800241_1_alg».proof.Proof.LibFlattenRows
import Idealize.ShloMosaic.Lib.StableHlo.Run
import Idealize.ShloMosaic.Lib.ValueLayout

set_option maxRecDepth 16384

noncomputable section

namespace Cert.KernelIdeal.Chain

open Idealize.ShloMosaic Idealize.ShloMosaic.TcCoe Idealize.ShloMosaic.ValueIdx Idealize.SL.Sem
open Idealize.ShloMosaic.StableHlo
open Cert.KernelIdeal Cert.KernelIdeal.Gen Cert.Head

variable (m : (ℓ : Loc nD τ sig) → Buf (Elt Ideal) ℓ) (ρ : Dev nD → PrngReg)

/-! ## What the first region finds -/

theorem first_label (c : Dev nD) : V1 m ρ c main_arg1 = m ((c : Thread nD τ).loc main_arg1) := by
  show StableHlo.after hostOps0 (W0 m ρ c) (Proc.devRef .tc main_arg1) = _
  after_results <;> rfl

theorem first_weights (c : Dev nD) : V1 m ρ c main_arg4 = m ((c : Thread nD τ).loc main_arg4) := by
  show StableHlo.after hostOps0 (W0 m ρ c) (Proc.devRef .tc main_arg4) = _
  after_results <;> rfl

theorem first_out (c : Dev nD) : V1 m ρ c main_arg6 = m ((c : Thread nD τ).loc main_arg6) := by
  show StableHlo.after hostOps0 (W0 m ρ c) (Proc.devRef .tc main_arg6) = _
  after_results <;> rfl

theorem first_bias (c : Dev nD) :
    V1 m ρ c main_v1 = shapeCast S1x64 (m ((c : Thread nD τ).loc main_arg5)) shapeCasts_S64_S1x64 := by
  show StableHlo.after hostOps0 (W0 m ρ c) (Proc.devRef .tc main_v1) = _
  after_results <;> rfl

/-! ## What the second region finds -/

theorem second_samples (c : Dev nD) :
    V3 m ρ c main_v4 = shapeCast S32768x768 (m ((c : Thread nD τ).loc main_arg0)) shapeCasts_S8x4096x768_S32768x768 := by
  show StableHlo.after hostOps1 (W2 m ρ c) (Proc.devRef .tc main_v4) = _
  after_results
  rw [W2_of_ne m ρ c main_arg0 (by decide)]
  show shapeCast S32768x768 (StableHlo.after hostOps0 (W0 m ρ c) (Proc.devRef .tc main_arg0)) _ = _
  after_results <;> rfl

theorem second_weights (c : Dev nD) : V3 m ρ c main_arg2 = m ((c : Thread nD τ).loc main_arg2) := by
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results <;> rfl

theorem second_bias (c : Dev nD) :
    V3 m ρ c main_v0 = shapeCast S1x64 (m ((c : Thread nD τ).loc main_arg3)) shapeCasts_S64_S1x64 := by
  show StableHlo.after hostOps1 (W2 m ρ c) (Proc.devRef .tc main_v0) = _
  after_results
  rw [W2_of_ne m ρ c main_v0 (by decide)]
  show StableHlo.after hostOps0 (W0 m ρ c) (Proc.devRef .tc main_v0) = _
  after_results <;> rfl

theorem second_outBias (c : Dev nD) :
    V3 m ρ c main_v2 = shapeCast S1x1 (m ((c : Thread nD τ).loc main_arg7)) shapeCasts_S1_S1x1 := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results <;> rfl

theorem second_labelWeights (c : Dev nD) : V3 m ρ c main_v3 = LabelRegion.weightsOf (V1 m ρ) c := by
  show StableHlo.after hostOps1 (W2 m ρ c) (Proc.devRef .tc main_v3) = _
  after_results
  exact (W2_arr m ρ c 4).trans (LabelRegion.final (V1 m ρ) c)

/-! ## The result array -/

theorem last_boundary (c : Dev nD) :
    W5 m ρ c (Proc.devRef .tc main_v6)
      = shapeCast S8x4096x1024 (ScoreRegion.scoresOf (V3 m ρ) c) shapeCasts_S32768x1024_S8x4096x1024 := by
  show StableHlo.after hostOps2 (W4 m ρ c) (Proc.devRef .tc main_v6) = _
  after_results
  exact congrArg (fun y => shapeCast S8x4096x1024 y shapeCasts_S32768x1024_S8x4096x1024)
    ((W4_arr m ρ c 5).trans (ScoreRegion.final (V3 m ρ) c))

/-- The result array at the last boundary is the head's logits of the launch memory. -/
theorem result_eq (c : Dev nD) :
    W5 m ρ c (Proc.devRef .tc main_v6)
      = logits (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  rw [last_boundary]
  funext j
  obtain ⟨p, r, l, rfl⟩ : ∃ (p : Fin 8) (r : Fin 4096) (l : Fin 1024), j = ix3 p r l := ⟨j 0, j 1, j 2, eq_ix3 j⟩
  have hp : p.val < 8 := p.isLt
  have hr : r.val < 4096 := r.isLt
  rw [LibFlattenRows.unflatten_apply _ _ p r l (⟨p.val * 4096 + r.val, by omega⟩ : Fin 32768) rfl]
  rw [logits_apply]
  unfold ScoreRegion.scoresOf
  rw [scores_apply]
  beta_reduce
  rw [second_outBias, shapeCast_a_1a_apply]
  refine congrArg (fun s : EReal => s + m ((c : Thread nD τ).loc main_arg7) (ix1 (0 : Fin 1)))
    (Finset.sum_congr rfl fun h _ => ?_)
  rw [second_labelWeights, second_weights, second_bias, shapeCast_a_1a_apply, second_samples]
  unfold LabelRegion.weightsOf
  rw [labelWeights_apply]
  beta_reduce
  rw [first_label, first_weights, first_out, first_bias, shapeCast_a_1a_apply]
  refine congrArg (fun x : Fin 768 → EReal =>
      unit x (fun i => m ((c : Thread nD τ).loc main_arg2) (ix2 h i)) (m ((c : Thread nD τ).loc main_arg3) (ix1 h))
        * (unit (fun i => m ((c : Thread nD τ).loc main_arg1) (ix2 l i))
            (fun i => m ((c : Thread nD τ).loc main_arg4) (ix2 h i)) (m ((c : Thread nD τ).loc main_arg5) (ix1 h))
          * m ((c : Thread nD τ).loc main_arg6) (ix2 (0 : Fin 1) h)))
    (funext fun i => ?_)
  exact LibFlattenRows.flatten_apply _ _ p r i _ rfl

end Cert.KernelIdeal.Chain

end
-- ==== Proof.ReferenceBridge.lean ====
/-
  The reference program's result, read entry by entry, is the head's logits.

  The reference forms the sample's hidden units on the stacked samples `[8, 4096, 768]` (a contraction over the
  768 features, the bias broadcast along the last axis, the floor at zero), the label's hidden units likewise,
  multiplies the sample's units by the output weight row, contracts over the 64 hidden units with the label's units,
  and adds the scalar bias. Entry `(p, r, l)` is therefore `∑ h, (sample unit * Wo h) * label unit + bo`; the head's
  logits group the same three factors as `sample unit * (label unit * Wo h)`, equal by commutativity and
  associativity of the product.
-/
import proofs.«118346_j73701638800241_1_alg».proof.Proof.Gen.ReferenceIdeal.Read
import proofs.«118346_j73701638800241_1_alg».proof.Proof.Head

noncomputable section

namespace Cert.ReferenceIdeal.Bridge

open Idealize.ShloMosaic Idealize.ShloMosaic.ValueIdx
open Cert.ReferenceIdeal Cert.ReferenceIdeal.Gen Cert.ReferenceIdeal.Read Cert.Head

/-- The sample side's hidden unit `h` of sample `(p, r)`. -/
theorem sample_unit (x0 : FVec Ideal S8x4096x768 .f32) (x2 : FVec Ideal S64x768 .f32) (x3 : FVec Ideal S64 .f32)
    (p : Fin 8) (r : Fin 4096) (h : Fin 64) :
    val_main_v4 (F := Ideal) x0 x2 x3 (ix3 p r h)
      = unit (fun i => x0 (ix3 p r i)) (fun i => x2 (ix2 h i)) (x3 (ix1 h)) := by
  have el : ∀ k : Fin 768, lidx_main_v0 (ix3 p r h) k = ix3 p r k := fun k => funext fun a => Fin.ext (by
    match a with
    | ⟨0, _⟩ => rfl
    | ⟨1, _⟩ => rfl
    | ⟨2, _⟩ => rfl)
  have er : ∀ k : Fin 768, ridx_main_v0 (ix3 p r h) k = ix2 h k := fun k => funext fun a => Fin.ext (by
    match a with
    | ⟨0, _⟩ => rfl
    | ⟨1, _⟩ => rfl)
  have eb : idx_main_v1 (idx_main_v2 (ix3 p r h)) = ix1 h := funext fun a => Fin.ext (by
    match a with
    | ⟨0, _⟩ => rfl)
  rw [val_main_v4_apply, val_main_v3_apply, val_main_v0_apply, val_main_v2_apply, val_main_v1_apply,
    val_main_call0_v0_apply, val_main_call0_cst_apply]
  simp only [el, er, eb]
  rfl

/-- The label side's hidden unit `h` of label `l`. -/
theorem label_unit (x1 : FVec Ideal S1024x768 .f32) (x4 : FVec Ideal S64x768 .f32) (x5 : FVec Ideal S64 .f32)
    (l : Fin 1024) (h : Fin 64) :
    val_main_v9 (F := Ideal) x1 x4 x5 (ix2 l h)
      = unit (fun i => x1 (ix2 l i)) (fun i => x4 (ix2 h i)) (x5 (ix1 h)) := by
  have el : ∀ k : Fin 768, lidx_main_v5 (ix2 l h) k = ix2 l k := fun k => funext fun a => Fin.ext (by
    match a with
    | ⟨0, _⟩ => rfl
    | ⟨1, _⟩ => rfl)
  have er : ∀ k : Fin 768, ridx_main_v5 (ix2 l h) k = ix2 h k := fun k => funext fun a => Fin.ext (by
    match a with
    | ⟨0, _⟩ => rfl
    | ⟨1, _⟩ => rfl)
  have eb : idx_main_v6 (idx_main_v7 (ix2 l h)) = ix1 h := funext fun a => Fin.ext (by
    match a with
    | ⟨0, _⟩ => rfl)
  rw [val_main_v9_apply, val_main_v8_apply, val_main_v5_apply, val_main_v7_apply, val_main_v6_apply,
    val_main_call1_v0_apply, val_main_call1_cst_apply]
  simp only [el, er, eb]
  rfl

/-- The output weight row spread over the samples reads its entry `h`. -/
theorem out_weight (x6 : FVec Ideal S1x64 .f32) (p : Fin 8) (r : Fin 4096) (h : Fin 64) :
    val_main_v12 (F := Ideal) x6 (ix3 p r h) = x6 (ix2 (0 : Fin 1) h) := by
  have e : idx_main_v10 (idx_main_v11 (idx_main_v12 (ix3 p r h))) = ix2 (0 : Fin 1) h := funext fun a => Fin.ext (by
    match a with
    | ⟨0, _⟩ => rfl
    | ⟨1, _⟩ => exact Nat.mod_eq_of_lt h.isLt)
  rw [val_main_v12_apply, val_main_v11_apply, val_main_v10_apply, e]

/-- The one-entry bias laid out as a scalar reads its entry. -/
theorem out_bias (x7 : FVec Ideal S1 .f32) (j : S_.Idx) : val_main_v15 (F := Ideal) x7 j = x7 (ix1 (0 : Fin 1)) := by
  unfold val_main_v15
  refine shapeCast_apply x7 shapeCasts_S1_S_ j (ix1 (0 : Fin 1)) ?_
  have h2 : (S_.rowMajor j).val < S_.numel := (S_.rowMajor j).isLt
  have hn : S_.numel = 1 := Shape.numel_eq_one (s := S_) (fun a => a.elim0)
  rw [Shape.rowMajor_val_one]
  show (0 : ℕ) = _
  omega

/-- The reference's result is the head's logits of the eight arguments. -/
theorem result_eq (x0 : FVec Ideal S8x4096x768 .f32) (x1 : FVec Ideal S1024x768 .f32) (x2 : FVec Ideal S64x768 .f32)
    (x3 : FVec Ideal S64 .f32) (x4 : FVec Ideal S64x768 .f32) (x5 : FVec Ideal S64 .f32) (x6 : FVec Ideal S1x64 .f32)
    (x7 : FVec Ideal S1 .f32) :
    val_main_v17 (F := Ideal) x0 x1 x2 x3 x4 x5 x6 x7 = logits x0 x1 x2 x3 x4 x5 x6 x7 := by
  funext j
  obtain ⟨p, r, l, rfl⟩ : ∃ (p : Fin 8) (r : Fin 4096) (l : Fin 1024), j = ix3 p r l := ⟨j 0, j 1, j 2, eq_ix3 j⟩
  rw [val_main_v17_apply, val_main_v14_apply, val_main_v16_apply, out_bias]
  unfold logits
  refine congrArg (fun s : EReal => s + x7 (ix1 (0 : Fin 1))) (Finset.sum_congr rfl fun h _ => ?_)
  have el : lidx_main_v14 (ix3 p r l) h = ix3 p r h := funext fun a => Fin.ext (by
    match a with
    | ⟨0, _⟩ => rfl
    | ⟨1, _⟩ => rfl
    | ⟨2, _⟩ => rfl)
  have er : ridx_main_v14 (ix3 p r l) h = ix2 l h := funext fun a => Fin.ext (by
    match a with
    | ⟨0, _⟩ => rfl
    | ⟨1, _⟩ => rfl)
  rw [el, er, val_main_v13_apply, sample_unit, label_unit, out_weight]
  exact (regroup _ _ _).symm

end Cert.ReferenceIdeal.Bridge

end
-- ==== Proof.lean ====
/- The label-scoring head: a Pallas kernel in two launches against its jnp reference, equal over the extended reals.

   Both programs compute, for sample `(p, r)` and label `l`,
       ∑ h, relu(data p r · Wd h + bd h) * relu(label l · Wl h + bl h) * Wo h  +  bo
   over the 64 hidden units. The kernel's first launch folds the output weight into the label side (the label
   weights `relu(…) * Wo h`, one block); its second launch, over 32 blocks of 1024 samples laid out as a tall matrix,
   forms the samples' hidden units and contracts them with the label weights. The reference multiplies the output
   weight into the sample side and contracts with the label's hidden units. A change of float format is the identity
   on the extended reals and each matrix product is its plain sum, so the two results differ only in the grouping of
   each three-fold product, and the product of extended reals is commutative and associative.

   Proof/Head.lean states the head; Proof/Bodies.lean reads the two kernel bodies entry by entry; Proof/LabelRegion.lean
   and Proof/ScoreRegion.lean read each launch's result array off its blocks; Proof/KernelRun.lean is the program's run
   with the result array named; Proof/Chain.lean reads that array back to the launch memory; Proof/ReferenceBridge.lean
   reads the reference's result. The idealization rewrote nothing, so `preserves` has nothing to state. -/
import proofs.«118346_j73701638800241_1_alg».proof.Defs
import proofs.«118346_j73701638800241_1_alg».proof.Proof.Gen.Kernel
import proofs.«118346_j73701638800241_1_alg».proof.Proof.Gen.Kernel.Frame
import proofs.«118346_j73701638800241_1_alg».proof.Proof.Gen.KernelIdeal
import proofs.«118346_j73701638800241_1_alg».proof.Proof.Gen.KernelIdeal.Frame
import proofs.«118346_j73701638800241_1_alg».proof.Proof.Gen.ReferenceIdeal
import proofs.«118346_j73701638800241_1_alg».proof.Proof.Gen.Pre_finite_inputs
import proofs.«118346_j73701638800241_1_alg».proof.Proof.Gen.ReferenceIdeal.Run
import proofs.«118346_j73701638800241_1_alg».proof.Proof.Gen.ReferenceIdeal.Read
import proofs.«118346_j73701638800241_1_alg».proof.Proof.KernelRun
import proofs.«118346_j73701638800241_1_alg».proof.Proof.Chain
import proofs.«118346_j73701638800241_1_alg».proof.Proof.ReferenceBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the head's logits of the (agreeing) arguments: the kernel's result array by the run with the
    array named and its reading back to the launch memory, the reference's by its run and its reading. -/
theorem algebraic : Cert.algebraic_KernelIdeal_ReferenceIdeal := by
  intro m ρ m' ρ' _ hagree
  refine ⟨fun c => Cert.Head.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result_eq m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.ReferenceIdeal.Read.val_main_v17_eq _ _ _ _ _ _ _ _).trans
      (Cert.ReferenceIdeal.Bridge.result_eq _ _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
